-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x192x192x192 : Shape := ⟨5, ![2, 4, 192, 192, 192]⟩
abbrev S512x96 : Shape := ⟨2, ![512, 96]⟩
abbrev S_ : Shape := ⟨0, ![]⟩

class Facts : Prop where
  bcast_S_S2x4x192x192x192 : S_.BroadcastsInDim S2x4x192x192x192 (![] : Fin 0 → Fin S2x4x192x192x192.rank)
  reducesTo_S2x4x192x192x192_S_d0_1_2_3_4 : S2x4x192x192x192.ReducesTo [0, 1, 2, 3, 4] S_
  h_S_ : 0 < S_.numel
  bcast_S_S512x96 : S_.BroadcastsInDim S512x96 (![] : Fin 0 → Fin S512x96.rank)
  reducesTo_S512x96_S_d0_1 : S512x96.ReducesTo [0, 1] S_

variable [Facts]

def fn {F : FTy → Type} [FloatOps F] (main_arg0 : FVec F S2x4x192x192x192 .f32) (main_arg1 : FVec F S512x96 .f32) : IVec S_ 1 :=
  let main_v0 : FVec F S2x4x192x192x192 .f32 := Host.absf main_arg0
  let main_cst : FVec F S_ .f32 := constant S_ .f32 0x7F800000#32
  let main_v1 : FVec F S2x4x192x192x192 .f32 := broadcastInDim S2x4x192x192x192 ![] bcast_S_S2x4x192x192x192 main_cst
  let main_v2 : IVec S2x4x192x192x192 1 := cmpf .olt main_v0 main_v1
  let main_c : IVec S_ 1 := constantI S_ 1 1#1
  let main_v3 : IVec S_ 1 := (fun x v => Host.reduce IntOp.andi x v reducesTo_S2x4x192x192x192_S_d0_1_2_3_4 h_S_) main_v2 main_c
  let main_v4 : FVec F S512x96 .f32 := Host.absf main_arg1
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  main_v8
-- ==== Kernel.lean ====
abbrev S2x4x192x192x192 : Shape := ⟨5, ![2, 4, 192, 192, 192]⟩
abbrev S512x96 : Shape := ⟨2, ![512, 96]⟩
abbrev S2x55296x96 : Shape := ⟨3, ![2, 55296, 96]⟩
abbrev S1x1x8x192x192 : Shape := ⟨5, ![1, 1, 8, 192, 192]⟩
abbrev S1x576x96 : Shape := ⟨3, ![1, 576, 96]⟩
abbrev S8x192x192 : Shape := ⟨3, ![8, 192, 192]⟩
abbrev S8x24x8x24x8 : Shape := ⟨5, ![8, 24, 8, 24, 8]⟩
abbrev S24x24x8x8x8 : Shape := ⟨5, ![24, 24, 8, 8, 8]⟩
abbrev S576x512 : Shape := ⟨2, ![576, 512]⟩
abbrev S576x96 : Shape := ⟨2, ![576, 96]⟩

abbrev nBuf : Space → Nat
  | .hbm => 3
  | .vmem => 5
  | .smem => 0
  | _ => 0

abbrev bufTy : (tb : Table) → Fin (tcTables nBuf tb) → BufTy
  | .hbm, ⟨0, _⟩ => ⟨S2x4x192x192x192, .f32⟩
  | .hbm, ⟨1, _⟩ => ⟨S512x96, .f32⟩
  | .hbm, ⟨2, _⟩ => ⟨S2x55296x96, .f32⟩
  | .local _ .vmem, ⟨0, _⟩ => ⟨S1x1x8x192x192, .f32⟩
  | .local _ .vmem, ⟨1, _⟩ => ⟨S1x1x8x192x192, .f32⟩
  | .local _ .vmem, ⟨2, _⟩ => ⟨S512x96, .f32⟩
  | .local _ .vmem, ⟨3, _⟩ => ⟨S1x576x96, .f32⟩
  | .local _ .vmem, ⟨4, _⟩ => ⟨S1x576x96, .f32⟩
  | _, _ => ⟨S2x4x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 4, 24], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg1 c24_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x1x8x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x576x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1x8x192x192_S1x1x8x192x192_0_0_0_0_0 : ∀ a, (![0, 0, 0, 0, 0] : Fin 5 → Nat) a + S1x1x8x192x192.size a ≤ S1x1x8x192x192.size a
  h_S1x1x8x192x192 : 0 < S1x1x8x192x192.numel
  shapeCasts_S1x1x8x192x192_S8x192x192 : S1x1x8x192x192.ShapeCasts S8x192x192
  shapeCasts_S8x192x192_S8x24x8x24x8 : S8x192x192.ShapeCasts S8x24x8x24x8
  transposes_S8x24x8x24x8_p1_3_0_2_4_S24x24x8x8x8 : S8x24x8x24x8.Transposes [1, 3, 0, 2, 4] S24x24x8x8x8
  shapeCasts_S24x24x8x8x8_S576x512 : S24x24x8x8x8.ShapeCasts S576x512
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S1x576x96_S1x576x96_0_0_0 : ∀ a, (![0, 0, 0] : Fin 3 → Nat) a + S1x576x96.size a ≤ S1x576x96.size a
  h_S1x576x96 : 0 < S1x576x96.numel
  shapeCasts_S1x576x96_S576x96 : S1x576x96.ShapeCasts S576x96
  shapeCasts_S576x96_S1x576x96 : S576x96.ShapeCasts S1x576x96
  dot_S576x512_S512x96_S576x96_1_0_0_1_n_n_wf : DotDims.WF S576x512 S512x96 S576x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x192x192.size a ≤ S2x4x192x192x192.size a
  hwx0_0 : ∀ i : grid0.Coords, EltTy.bits .f32 = 32 ∨ (Rect.block (s := S2x4x192x192x192) S1x1x8x192x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x576x96.size a ≤ S2x55296x96.size a
  hwx0_2 : ∀ i : grid0.Coords, EltTy.bits .f32 = 32 ∨ (Rect.block (s := S2x55296x96) S1x576x96.size (cc0_transform_2 i) (hinb0_2 i)).WholeWords (EltTy.packing .f32)

variable [Facts₀]

def dot_S576x512_S512x96_S576x96_1_0_0_1_n_n : DotDims S576x512 S512x96 S576x96 where
  lhsContracting := [1]
  rhsContracting := [0]
  lhsNonContracting := [0]
  rhsNonContracting := [1]
  lhsBatch := []
  rhsBatch := []
  wf := dot_S576x512_S512x96_S576x96_1_0_0_1_n_n_wf

abbrev win0_0 : Pipeline.Window sig grid0 :=
  Pipeline.Window.ofSpec (Memref.whole main_arg0) S1x1x8x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x576x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4x192x192x192 : Shape := ⟨5, ![2, 4, 192, 192, 192]⟩
abbrev S512x96 : Shape := ⟨2, ![512, 96]⟩
abbrev S2x4x24x8x24x8x24x8 : Shape := ⟨8, ![2, 4, 24, 8, 24, 8, 24, 8]⟩
abbrev S2x4x24x24x24x8x8x8 : Shape := ⟨8, ![2, 4, 24, 24, 24, 8, 8, 8]⟩
abbrev S2x55296x512 : Shape := ⟨3, ![2, 55296, 512]⟩
abbrev S2x55296x96 : Shape := ⟨3, ![2, 55296, 96]⟩

abbrev nBuf : Space → Nat
  | .hbm => 6
  | .vmem => 0
  | .smem => 0
  | _ => 0

abbrev bufTy : (tb : Table) → Fin (tcTables nBuf tb) → BufTy
  | .hbm, ⟨0, _⟩ => ⟨S2x4x192x192x192, .f32⟩
  | .hbm, ⟨1, _⟩ => ⟨S512x96, .f32⟩
  | .hbm, ⟨2, _⟩ => ⟨S2x4x24x8x24x8x24x8, .f32⟩
  | .hbm, ⟨3, _⟩ => ⟨S2x4x24x24x24x8x8x8, .f32⟩
  | .hbm, ⟨4, _⟩ => ⟨S2x55296x512, .f32⟩
  | .hbm, ⟨5, _⟩ => ⟨S2x55296x96, .f32⟩
  | _, _ => ⟨S2x4x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S2x4x192x192x192_S2x4x24x8x24x8x24x8 : S2x4x192x192x192.ShapeCasts S2x4x24x8x24x8x24x8
  transposes_S2x4x24x8x24x8x24x8_S2x4x24x24x24x8x8x8_0_1_2_4_6_3_5_7 : S2x4x24x8x24x8x24x8.Transposes [0, 1, 2, 4, 6, 3, 5, 7] S2x4x24x24x24x8x8x8
  shapeCasts_S2x4x24x24x24x8x8x8_S2x55296x512 : S2x4x24x24x24x8x8x8.ShapeCasts S2x55296x512
  dot_S2x55296x512_S512x96_S2x55296x96_2_0_01_1_n_n_wf : DotDims.WF S2x55296x512 S512x96 S2x55296x96 [2] [0] [0, 1] [1] [] []

variable [Facts₀]

def dot_S2x55296x512_S512x96_S2x55296x96_2_0_01_1_n_n : DotDims S2x55296x512 S512x96 S2x55296x96 where
  lhsContracting := [2]
  rhsContracting := [0]
  lhsNonContracting := [0, 1]
  rhsNonContracting := [1]
  lhsBatch := []
  rhsBatch := []
  wf := dot_S2x55296x512_S512x96_S2x55296x96_2_0_01_1_n_n_wf

class Facts : Prop extends Facts₀ where

variable [Facts]
-- ==== Proof.CubeSpec.lean ====
/-
  The function both programs compute. The volume x : [2, 4, 192, 192, 192] is cut into 8×8×8 cubes; cube n of
  batch b (n counting channel, then depth block, then row block, then column block, 4·24·24·24 = 55296 of them)
  is flattened to 512 numbers (depth, row, column inside the cube) and multiplied into proj : [512, 96]:
      out[b, n, e] = Σ_{k < 512} x[b, n / 13824, (n / 576 % 24)·8 + k / 64, (n / 24 % 24)·8 + k / 8 % 8, (n % 24)·8 + k % 8] · proj[k, e].
-/
import Idealize.ShloMosaic.PureOps.Ideal
import Idealize.ShloMosaic.Lib.ValueIdx

noncomputable section

namespace Cert.CubeSpec

open Idealize.ShloMosaic Idealize.ShloMosaic.ValueIdx

/-- The voxel that entry `k` of cube `n` of batch `b` is. -/
def voxel (b : Fin 2) (n : Fin 55296) (k : Fin 512) : (⟨5, ![2, 4, 192, 192, 192]⟩ : Shape).Idx :=
  ix5 b ⟨n.val / 13824, by have := n.isLt; omega⟩
    ⟨n.val / 576 % 24 * 8 + k.val / 64, by have := k.isLt; omega⟩
    ⟨n.val / 24 % 24 * 8 + k.val / 8 % 8, by omega⟩
    ⟨n.val % 24 * 8 + k.val % 8, by omega⟩

/-- Every cube projected: the sum over the cube's 512 voxels of voxel times the projection's row. -/
def projected (x : (⟨5, ![2, 4, 192, 192, 192]⟩ : Shape).Idx → EReal) (p : (⟨2, ![512, 96]⟩ : Shape).Idx → EReal) :
    (⟨3, ![2, 55296, 96]⟩ : Shape).Idx → EReal :=
  fun i => ∑ k : Fin 512, x (voxel (i 0) (i 1) k) * p (ix2 k (i 2))

end Cert.CubeSpec

end
-- ==== Proof.LibRowMajorEight.lean ====
/-
  The row-major position of a rank-8 index, written as one nested sum of products. A reshape is read at an
  index by equating the two row-major positions; for an array of eight axes this is the equation's left side.
-/
import Idealize.ShloMosaic.Lib.ValueIdx

namespace Idealize.ShloMosaic

/-- Rank 8: position = (((((((i₀·d₁ + i₁)·d₂ + i₂)·d₃ + i₃)·d₄ + i₄)·d₅ + i₅)·d₆ + i₆)·d₇ + i₇. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

end Idealize.ShloMosaic
-- ==== Proof.ReferenceCubes.lean ====
/-
  The reference's result is the projected cubes. The reference re-lays the volume twice before its product:
  [2,4,192,192,192] is read as [2,4,24,8,24,8,24,8] (each spatial axis split into block and offset), the three
  offsets are moved behind the three blocks, and the result is read as [2, 55296, 512]. Row-major positions are
  preserved by each reading, so entry (b, n, k) of the last array is the voxel with blocks
  (n / 576 % 24, n / 24 % 24, n % 24) in channel n / 13824 and offsets (k / 64, k / 8 % 8, k % 8).
-/
import proofs.«169863_j8813272892075_1_alg».proof.Proof.Gen.ReferenceIdeal.Read
import proofs.«169863_j8813272892075_1_alg».proof.Proof.LibRowMajorEight
import proofs.«169863_j8813272892075_1_alg».proof.Proof.CubeSpec

noncomputable section

namespace Cert.ReferenceIdeal.RefValue

open Cert.ReferenceIdeal Cert.ReferenceIdeal.Gen Cert.ReferenceIdeal.Read Cert.CubeSpec
open Idealize.ShloMosaic Idealize.ShloMosaic.TcCoe Idealize.ShloMosaic.ValueIdx

/-- Cube `n`'s entry `k` in the eight-axis array with the offsets behind the blocks:
    (b, channel, depth block, row block, column block, depth, row, column). -/
def blocksFirst (b : Fin 2) (n : Fin 55296) (k : Fin 512) : S2x4x24x24x24x8x8x8.Idx := fun a => match a with
  | ⟨0, _⟩ => b
  | ⟨1, _⟩ => (⟨n.val / 13824, by have := n.isLt; omega⟩ : Fin 4)
  | ⟨2, _⟩ => (⟨n.val / 576 % 24, by omega⟩ : Fin 24)
  | ⟨3, _⟩ => (⟨n.val / 24 % 24, by omega⟩ : Fin 24)
  | ⟨4, _⟩ => (⟨n.val % 24, by omega⟩ : Fin 24)
  | ⟨5, _⟩ => (⟨k.val / 64, by have := k.isLt; omega⟩ : Fin 8)
  | ⟨6, _⟩ => (⟨k.val / 8 % 8, by omega⟩ : Fin 8)
  | ⟨7, _⟩ => (⟨k.val % 8, by omega⟩ : Fin 8)

/-- The matrix of flattened cubes, read at (b, n, k), is the voxel. -/
theorem cubes_apply (x : (⟨S2x4x192x192x192, .f32⟩ : BufTy).Contents (Elt Ideal)) (b : Fin 2) (n : Fin 55296) (k : Fin 512) :
    val_main_v2 (F := Ideal) x (ix3 b n k) = x (voxel b n k) := by
  have hn := n.isLt
  have hk := k.isLt
  have hb := b.isLt
  unfold val_main_v2
  refine (shapeCast_apply _ shapeCasts_S2x4x24x24x24x8x8x8_S2x55296x512 (ix3 b n k) (blocksFirst b n k) ?_).trans ?_
  · rw [Shape.rowMajor_val_eight, Shape.rowMajor_val_three]
    show ((((((b.val * 4 + n.val / 13824) * 24 + n.val / 576 % 24) * 24 + n.val / 24 % 24) * 24 + n.val % 24) * 8
        + k.val / 64) * 8 + k.val / 8 % 8) * 8 + k.val % 8 = (b.val * 55296 + n.val) * 512 + k.val
    omega
  rw [val_main_v1_apply]
  unfold val_main_v0
  refine shapeCast_apply _ shapeCasts_S2x4x192x192x192_S2x4x24x8x24x8x24x8 _ (voxel b n k) ?_
  rw [Shape.rowMajor_val_eight, Shape.rowMajor_val_five]
  show (((b.val * 4 + n.val / 13824) * 192 + (n.val / 576 % 24 * 8 + k.val / 64)) * 192
        + (n.val / 24 % 24 * 8 + k.val / 8 % 8)) * 192 + (n.val % 24 * 8 + k.val % 8)
      = ((((((b.val * 4 + n.val / 13824) * 24 + n.val / 576 % 24) * 8 + k.val / 64) * 24 + n.val / 24 % 24) * 8
        + k.val / 8 % 8) * 24 + n.val % 24) * 8 + k.val % 8
  omega

/-- The reference's product is the projection of every cube. -/
theorem result_eq (x : (⟨S2x4x192x192x192, .f32⟩ : BufTy).Contents (Elt Ideal)) (p : (⟨S512x96, .f32⟩ : BufTy).Contents (Elt Ideal)) :
    val_main_v3 (F := Ideal) x p = projected x p := by
  funext i
  obtain ⟨b, n, e, rfl⟩ : ∃ (b : Fin 2) (n : Fin 55296) (e : Fin 96), i = ix3 b n e := ⟨i 0, i 1, i 2, eq_ix3 i⟩
  rw [val_main_v3_apply]
  show _ = ∑ k : Fin 512, x (voxel b n k) * p (ix2 k e)
  refine Finset.sum_congr rfl fun k _ => ?_
  have el : lidx_main_v3 (ix3 b n e) k = ix3 b n k := funext fun a => by
    match a with | ⟨0, _⟩ => rfl | ⟨1, _⟩ => rfl | ⟨2, _⟩ => rfl
  have er : ridx_main_v3 (ix3 b n e) k = ix2 k e := funext fun a => by
    match a with | ⟨0, _⟩ => rfl | ⟨1, _⟩ => rfl
  rw [el, er, cubes_apply]

end Cert.ReferenceIdeal.RefValue

end
-- ==== Proof.CubePayload.lean ====
/-
  What the kernel body computes from its two loaded blocks. The slab [1,1,8,192,192] is read as [8,192,192],
  then as [8,24,8,24,8] (rows and columns split into block and offset), the two block axes are moved to the front
  ([24,24,8,8,8]) and the result is read as a matrix [576, 512]: row a is the cube at row block a / 24 and column
  block a % 24, column k its voxel at depth k / 64, row offset k / 8 % 8, column offset k % 8. The change of
  float format is the identity on extended reals, and the matrix product into a zero accumulator is the sum over
  the 512 columns. So entry (a, e) of the stored block is Σ_k slab[k / 64, (a / 24)·8 + k / 8 % 8, (a % 24)·8 + k % 8] · proj[k, e].
-/
import proofs.«169863_j8813272892075_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CubeValue

open Cert.KernelIdeal Cert.KernelIdeal.Gen
open Idealize.ShloMosaic Idealize.ShloMosaic.TcCoe Idealize.ShloMosaic.ValueIdx

/-- The slab's voxel that column `k` of row `a` of the cube matrix is. -/
def slabVoxel (a : Fin 576) (k : Fin 512) : S1x1x8x192x192.Idx :=
  ix5 (0 : Fin 1) (0 : Fin 1) ⟨k.val / 64, by have := k.isLt; omega⟩
    ⟨a.val / 24 * 8 + k.val / 8 % 8, by have := a.isLt; omega⟩
    ⟨a.val % 24 * 8 + k.val % 8, by omega⟩

/-- The cube matrix read at (a, k) is the slab's voxel: each reading keeps row-major positions, the transpose moves
    the two block coordinates in front of the three offsets. -/
theorem cubeRows_apply (x0 : Vec Ideal S1x1x8x192x192 .f32) (a : Fin 576) (k : Fin 512) :
    shapeCast S576x512 (transpose S24x24x8x8x8 [1, 3, 0, 2, 4]
        (shapeCast S8x24x8x24x8 (shapeCast S8x192x192 x0 shapeCasts_S1x1x8x192x192_S8x192x192) shapeCasts_S8x192x192_S8x24x8x24x8)
        transposes_S8x24x8x24x8_p1_3_0_2_4_S24x24x8x8x8) shapeCasts_S24x24x8x8x8_S576x512 (ix2 a k)
      = x0 (slabVoxel a k) := by
  have ha := a.isLt
  have hk := k.isLt
  refine (shapeCast_apply _ shapeCasts_S24x24x8x8x8_S576x512 (ix2 a k)
    (ix5 (⟨a.val / 24, by omega⟩ : Fin 24) (⟨a.val % 24, by omega⟩ : Fin 24) (⟨k.val / 64, by omega⟩ : Fin 8)
      (⟨k.val / 8 % 8, by omega⟩ : Fin 8) (⟨k.val % 8, by omega⟩ : Fin 8)) ?_).trans ?_
  · rw [Shape.rowMajor_val_five, Shape.rowMajor_val_two]
    show (((a.val / 24 * 24 + a.val % 24) * 8 + k.val / 64) * 8 + k.val / 8 % 8) * 8 + k.val % 8 = a.val * 512 + k.val
    omega
  refine (transpose_apply [1, 3, 0, 2, 4] _ transposes_S8x24x8x24x8_p1_3_0_2_4_S24x24x8x8x8 _
    (ix5 (⟨k.val / 64, by omega⟩ : Fin 8) (⟨a.val / 24, by omega⟩ : Fin 24) (⟨k.val / 8 % 8, by omega⟩ : Fin 8)
      (⟨a.val % 24, by omega⟩ : Fin 24) (⟨k.val % 8, by omega⟩ : Fin 8))
    (fun b => match b with | ⟨0, _⟩ => rfl | ⟨1, _⟩ => rfl | ⟨2, _⟩ => rfl | ⟨3, _⟩ => rfl | ⟨4, _⟩ => rfl)).trans ?_
  refine (shapeCast_apply _ shapeCasts_S8x192x192_S8x24x8x24x8 _
    (ix3 (⟨k.val / 64, by omega⟩ : Fin 8) (⟨a.val / 24 * 8 + k.val / 8 % 8, by omega⟩ : Fin 192)
      (⟨a.val % 24 * 8 + k.val % 8, by omega⟩ : Fin 192)) ?_).trans ?_
  · rw [Shape.rowMajor_val_three, Shape.rowMajor_val_five]
    show (k.val / 64 * 192 + (a.val / 24 * 8 + k.val / 8 % 8)) * 192 + (a.val % 24 * 8 + k.val % 8)
      = (((k.val / 64 * 24 + a.val / 24) * 8 + k.val / 8 % 8) * 24 + a.val % 24) * 8 + k.val % 8
    omega
  refine shapeCast_apply _ shapeCasts_S1x1x8x192x192_S8x192x192 _ (slabVoxel a k) ?_
  rw [Shape.rowMajor_val_five, Shape.rowMajor_val_three]
  show (((0 * 1 + 0) * 8 + k.val / 64) * 192 + (a.val / 24 * 8 + k.val / 8 % 8)) * 192 + (a.val % 24 * 8 + k.val % 8)
    = (k.val / 64 * 192 + (a.val / 24 * 8 + k.val / 8 % 8)) * 192 + (a.val % 24 * 8 + k.val % 8)
  omega

/-! The product's operand indices: at output (a, e) and contraction index k the left operand is read at (a, k), the
    right at (k, e). -/

theorem lhs_rows_0 (i : S576x96.Idx) (q : dot_S576x512_S512x96_S576x96_1_0_0_1_n_n.contr.Idx) :
    (dot_S576x512_S512x96_S576x96_1_0_0_1_n_n.lhsIdx i q 0).val = (i 0).val := by
  unfold DotDims.lhsIdx
  rw [dif_neg (show ¬(0 : Fin S576x512.rank) ∈ dot_S576x512_S512x96_S576x96_1_0_0_1_n_n.lhsBatch by decide), dif_pos (show (0 : Fin S576x512.rank) ∈ dot_S576x512_S512x96_S576x96_1_0_0_1_n_n.lhsNonContracting by decide)]
  rfl
theorem lhs_rows_1 (i : S576x96.Idx) (q : dot_S576x512_S512x96_S576x96_1_0_0_1_n_n.contr.Idx) :
    (dot_S576x512_S512x96_S576x96_1_0_0_1_n_n.lhsIdx i q 1).val = (q ⟨0, by decide⟩).val :=
  dot_S576x512_S512x96_S576x96_1_0_0_1_n_n.lhsIdx_val_of_single rfl i q
theorem rhs_cols_0 (i : S576x96.Idx) (q : dot_S576x512_S512x96_S576x96_1_0_0_1_n_n.contr.Idx) :
    (dot_S576x512_S512x96_S576x96_1_0_0_1_n_n.rhsIdx i q 0).val = (q ⟨0, by decide⟩).val :=
  dot_S576x512_S512x96_S576x96_1_0_0_1_n_n.rhsIdx_val_of_single rfl i q
theorem rhs_cols_1 (i : S576x96.Idx) (q : dot_S576x512_S512x96_S576x96_1_0_0_1_n_n.contr.Idx) :
    (dot_S576x512_S512x96_S576x96_1_0_0_1_n_n.rhsIdx i q 1).val = (i 1).val := by
  unfold DotDims.rhsIdx
  rw [dif_neg (show ¬(1 : Fin S512x96.rank) ∈ dot_S576x512_S512x96_S576x96_1_0_0_1_n_n.rhsBatch by decide), dif_pos (show (1 : Fin S512x96.rank) ∈ dot_S576x512_S512x96_S576x96_1_0_0_1_n_n.rhsNonContracting by decide)]
  rfl

/-- The block product into a zero accumulator, at (a, e): the sum over the 512 columns. -/
theorem product_apply (l : FVec Ideal S576x512 .bf16) (r : FVec Ideal S512x96 .bf16) (a : Fin 576) (e : Fin 96) :
    matmul dot_S576x512_S512x96_S576x96_1_0_0_1_n_n none l r (constant (F := Ideal) S576x96 .f32 0x00000000#32) (ix2 a e)
      = ∑ k : Fin 512, l (ix2 a k) * r (ix2 k e) := by
  simp only [matmul]
  rw [Ideal.matmul_constant_zero_apply, ← Equiv.sum_comp (ValueIdx.contrEquiv1 dot_S576x512_S512x96_S576x96_1_0_0_1_n_n 512 rfl rfl).symm]
  refine Finset.sum_congr rfl fun k _ => ?_
  have hk := ValueIdx.contrEquiv1_symm_val dot_S576x512_S512x96_S576x96_1_0_0_1_n_n 512 rfl rfl k
  have el : dot_S576x512_S512x96_S576x96_1_0_0_1_n_n.lhsIdx (ix2 a e) ((ValueIdx.contrEquiv1 dot_S576x512_S512x96_S576x96_1_0_0_1_n_n 512 rfl rfl).symm k) = ix2 a k := funext fun d => Fin.ext (by
    match d with
    | ⟨0, _⟩ => exact lhs_rows_0 _ _
    | ⟨1, _⟩ => exact (lhs_rows_1 _ _).trans hk)
  have er : dot_S576x512_S512x96_S576x96_1_0_0_1_n_n.rhsIdx (ix2 a e) ((ValueIdx.contrEquiv1 dot_S576x512_S512x96_S576x96_1_0_0_1_n_n 512 rfl rfl).symm k) = ix2 k e := funext fun d => Fin.ext (by
    match d with
    | ⟨0, _⟩ => exact (rhs_cols_0 _ _).trans hk
    | ⟨1, _⟩ => exact rhs_cols_1 _ _)
  rw [el, er]

/-- The stored block at an index: the cube in row `j 1` projected onto column `j 2`. -/
theorem stored_apply (x0 : Vec Ideal S1x1x8x192x192 .f32) (x1 : Vec Ideal S512x96 .f32) (j : S1x576x96.Idx) :
    k0_pay1 (F := Ideal) x0 x1 j = ∑ k : Fin 512, x0 (slabVoxel (j 1) k) * x1 (ix2 k (j 2)) := by
  obtain ⟨u, a, e, rfl⟩ : ∃ (u : Fin 1) (a : Fin 576) (e : Fin 96), j = ix3 u a e := ⟨j 0, j 1, j 2, eq_ix3 j⟩
  unfold k0_pay1
  dsimp only
  rw [shapeCast_ab_1ab_apply, product_apply]
  refine Finset.sum_congr rfl fun k _ => ?_
  rw [truncf_apply, truncf_apply, cubeRows_apply]

end Cert.KernelIdeal.CubeValue

end
-- ==== Proof.CubeArray.lean ====
/-
  From blocks to the array. Grid point (b, c, z) loads the slab x[b, c, 8z … 8z+7, :, :] and the whole projection,
  and writes rows 576·(24c + z) … 576·(24c + z) + 575 of batch b of the result. Row 576·(24c + z) + a is cube
  n = 576·(24c + z) + a, whose channel n / 13824 is c, whose depth block n / 576 % 24 is z, and whose row and column
  blocks are a / 24 and a % 24: so the slab's voxel the body reads is the volume's voxel the projection names, and
  what the point writes back is its block of the projected cubes. The 2·96 row blocks tile the result array.
-/
import proofs.«169863_j8813272892075_1_alg».proof.Proof.Gen.KernelIdeal.Value
import proofs.«169863_j8813272892075_1_alg».proof.Proof.CubePayload
import proofs.«169863_j8813272892075_1_alg».proof.Proof.CubeSpec

set_option maxRecDepth 16384

noncomputable section

namespace Cert.KernelIdeal.CubeValue

open Cert.KernelIdeal Cert.KernelIdeal.Gen Cert.CubeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl
theorem zero5 : (![0, 0, 0, 0, 0] : Fin 5 → Nat) = fun _ => 0 := funext fun a => by fin_cases a <;> rfl

/-- The two argument arrays as the region finds them, at their literal types. -/
abbrev volume (c : Dev nD) : Vec Ideal S2x4x192x192x192 .f32 := V m c main_arg0
abbrev weights (c : Dev nD) : Vec Ideal S512x96 .f32 := V m c main_arg1

/-- The three index maps over the grid: the slab's block index is (b, c, z, 0, 0) with b ≤ 1, c ≤ 3, z ≤ 23, the
    projection's (0, 0), the result's (b, 24c + z, 0). -/
theorem index_facts : ∀ t : Fin cfg0.N,
    win0_0.index t (3 : Fin 5) = 0 ∧ win0_0.index t (4 : Fin 5) = 0
    ∧ win0_1.index t (0 : Fin 2) = 0 ∧ win0_1.index t (1 : Fin 2) = 0
    ∧ win0_2.index t (0 : Fin 3) = win0_0.index t (0 : Fin 5)
    ∧ win0_2.index t (1 : Fin 3) = win0_0.index t (1 : Fin 5) * 24 + win0_0.index t (2 : Fin 5)
    ∧ win0_2.index t (2 : Fin 3) = 0
    ∧ win0_0.index t (0 : Fin 5) ≤ 1 ∧ win0_0.index t (1 : Fin 5) ≤ 3 ∧ win0_0.index t (2 : Fin 5) ≤ 23 :=
  (by decide +kernel : ∀ t : Fin grid0.N, _)

/-- Every row block of either batch is some point's. -/
theorem index_onto : ∀ (q0 : Fin 2) (q1 : Fin 96), ∃ t : Fin cfg0.N, win0_2.index t = ![q0.val, q1.val, 0] :=
  (by decide +kernel : ∀ (q0 : Fin 2) (q1 : Fin 96), ∃ t : Fin grid0.N, win0_2.index t = ![q0.val, q1.val, 0])

/-- WHAT POINT `t` WRITES BACK is its block of the projected cubes of the argument arrays. -/
theorem flushed_eq (c : Dev nD) (t : Fin cfg0.N) :
    (dats m 0 c).flushed 2 t
      = ((cfg0.win 2).blk t).view.read (Elt Ideal) (projected (V m c main_arg0) (V m c main_arg1)) := by
  rw [Value.flushed2]
  unfold out0_2
  rw [View.canon_unit_zero zero3]
  simp only [View.ld_unit_zero (S := S1x1x8x192x192) zero5, View.ld_unit_zero (S := S512x96) zero2]
  obtain ⟨e3, e4, f0, f1, g0, g1, g2, b0, b1, b2⟩ := index_facts t
  funext j
  have hj0 : (j 0).val < 1 := (j 0).isLt
  have hj1 : (j 1).val < 576 := (j 1).isLt
  have hj2 : (j 2).val < 96 := (j 2).isLt
  refine (stored_apply (iblk m c 0 t) (iblk m c 1 t) j).trans ?_
  show _ = ∑ k : Fin 512,
      volume m c (voxel ((((cfg0.win 2).blk t).view.emb j) 0) ((((cfg0.win 2).blk t).view.emb j) 1) k)
      * weights m c (ix2 k ((((cfg0.win 2).blk t).view.emb j) 2))
  refine Finset.sum_congr rfl fun k _ => ?_
  have hk : k.val < 512 := k.isLt
  have hx : iblk m c 0 t (slabVoxel (j 1) k)
      = volume m c (voxel ((((cfg0.win 2).blk t).view.emb j) 0) ((((cfg0.win 2).blk t).view.emb j) 1) k) := by
    show V m c main_arg0 (((cfg0.win 0).blk t).view.emb (slabVoxel (j 1) k)) = _
    refine congrArg (V m c main_arg0) ?_
    funext a; apply Fin.ext
    match a with
    | ⟨0, _⟩ =>
      show win0_0.index t (0 : Fin 5) * 1 + 1 * 0 = win0_2.index t (0 : Fin 3) * 1 + 1 * (j 0).val
      omega
    | ⟨1, _⟩ =>
      show win0_0.index t (1 : Fin 5) * 1 + 1 * 0 = (win0_2.index t (1 : Fin 3) * 576 + 1 * (j 1).val) / 13824
      omega
    | ⟨2, _⟩ =>
      show win0_0.index t (2 : Fin 5) * 8 + 1 * (k.val / 64)
        = (win0_2.index t (1 : Fin 3) * 576 + 1 * (j 1).val) / 576 % 24 * 8 + k.val / 64
      omega
    | ⟨3, _⟩ =>
      show win0_0.index t (3 : Fin 5) * 192 + 1 * ((j 1).val / 24 * 8 + k.val / 8 % 8)
        = (win0_2.index t (1 : Fin 3) * 576 + 1 * (j 1).val) / 24 % 24 * 8 + k.val / 8 % 8
      omega
    | ⟨4, _⟩ =>
      show win0_0.index t (4 : Fin 5) * 192 + 1 * ((j 1).val % 24 * 8 + k.val % 8)
        = (win0_2.index t (1 : Fin 3) * 576 + 1 * (j 1).val) % 24 * 8 + k.val % 8
      omega
  have hp : iblk m c 1 t (ix2 k (j 2)) = weights m c (ix2 k ((((cfg0.win 2).blk t).view.emb j) 2)) := by
    show V m c main_arg1 (((cfg0.win 1).blk t).view.emb (ix2 k (j 2))) = _
    refine congrArg (V m c main_arg1) ?_
    funext a; apply Fin.ext
    match a with
    | ⟨0, _⟩ =>
      show win0_1.index t (0 : Fin 2) * 512 + 1 * k.val = k.val
      omega
    | ⟨1, _⟩ =>
      show win0_1.index t (1 : Fin 2) * 96 + 1 * (j 2).val = win0_2.index t (2 : Fin 3) * 96 + 1 * (j 2).val
      omega
  rw [hx, hp]

/-- An index of the result is in point `t`'s block iff each coordinate is in the block's range on its axis. -/
theorem mem_block (t : Fin cfg0.N) (i : S2x55296x96.Idx) :
    i ∈ ((cfg0.win 2).blk t).view.set ↔ ∀ a : Fin 3, win0_2.index t a * S1x576x96.size a ≤ (i a).val ∧ (i a).val < win0_2.index t a * S1x576x96.size a + S1x576x96.size a := by
  show i ∈ ((View.whole main_v0).slice (win0_2.rect t)).set ↔ _
  rw [View.set_slice_whole, Rect.mem_set_unit]
  exact Iff.rfl

/-- Every index of the result lies in some point's block: the point of batch `i 0` and row block `i 1 / 576`. -/
theorem covered (i : S2x55296x96.Idx) :
    ∃ t : Fin cfg0.N, (cfg0.win 2).flush t = true ∧ i ∈ ((cfg0.win 2).blk t).view.set := by
  have hi0 : (i 0).val < 2 := (i 0).isLt
  have hi1 : (i 1).val < 55296 := (i 1).isLt
  have hi2 : (i 2).val < 96 := (i 2).isLt
  obtain ⟨t, ht⟩ := index_onto ⟨(i 0).val, hi0⟩ ⟨(i 1).val / 576, by omega⟩
  have q0 : win0_2.index t (0 : Fin 3) = (i 0).val := congrFun ht 0
  have q1 : win0_2.index t (1 : Fin 3) = (i 1).val / 576 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 576 ≤ (i 1).val ∧ (i 1).val < win0_2.index t (1 : Fin 3) * 576 + 576; omega
  | ⟨2, _⟩ => show win0_2.index t (2 : Fin 3) * 96 ≤ (i 2).val ∧ (i 2).val < win0_2.index t (2 : Fin 3) * 96 + 96; omega

/-- THE RESULT ARRAY after the run: the projected cubes of the argument arrays. -/
theorem final (c : Dev nD) :
    (dats m 0 c).arrAt 2 cfg0.N
      = projected (m ((c : Thread nD τ).loc main_arg0)) (m ((c : Thread nD τ).loc main_arg1)) :=
  (dats m 0 c).arrAt_eq_of_cover 2 (projected (V m c main_arg0) (V m c main_arg1)) (fun t _ => flushed_eq m c t) covered

/-- The kernel's run, read: the result at the projected cubes, the arguments unchanged. -/
theorem run : θ_run defs (onTc (τ := τ) (main (F := Ideal))) ⟨m, fun _ => 0, ρ⟩ fun r => ∀ c : Dev nD,
      r.2.mem ((c : Thread nD τ).loc main_v0)
        = projected (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.CubeValue

end
-- ==== Proof.lean ====
/-
  The certificate of the cube splitter: a volume [2, 4, 192, 192, 192] cut into 8×8×8 cubes, each flattened to 512
  numbers and projected by a [512, 96] matrix. The kernel does one slab of eight depth layers per grid point
  (re-laying the slab into a 576 × 512 matrix of cubes and multiplying it into the projection), the reference re-lays
  the whole volume and takes one product. On the extended reals both results are the same sum, term by term and in the
  same order of the 512 voxels, `Cert.CubeSpec.projected` of the two arguments: the reference's run by
  `RefValue.result_eq` (each of its three re-layings keeps or permutes coordinates as the row-major arithmetic says),
  the kernel's by `CubeValue.run` (the body's block at a point is that point's rows of the projected cubes, and the
  points' row blocks tile the result). No algebraic law is needed, so the inputs' finiteness is never used. The
  idealization rewrote nothing, so the preservation claim is trivial; the frames are the generated ones, the reference's
  frame its generated run with the result dropped.
-/
import proofs.«169863_j8813272892075_1_alg».proof.Defs
import proofs.«169863_j8813272892075_1_alg».proof.Proof.Gen.Kernel
import proofs.«169863_j8813272892075_1_alg».proof.Proof.Gen.Kernel.Skeleton
import proofs.«169863_j8813272892075_1_alg».proof.Proof.Gen.Kernel.Launch
import proofs.«169863_j8813272892075_1_alg».proof.Proof.Gen.Kernel.Points
import proofs.«169863_j8813272892075_1_alg».proof.Proof.Gen.Kernel.Frame
import proofs.«169863_j8813272892075_1_alg».proof.Proof.Gen.KernelIdeal
import proofs.«169863_j8813272892075_1_alg».proof.Proof.Gen.KernelIdeal.Skeleton
import proofs.«169863_j8813272892075_1_alg».proof.Proof.Gen.KernelIdeal.Launch
import proofs.«169863_j8813272892075_1_alg».proof.Proof.Gen.KernelIdeal.Points
import proofs.«169863_j8813272892075_1_alg».proof.Proof.Gen.KernelIdeal.Frame
import proofs.«169863_j8813272892075_1_alg».proof.Proof.Gen.ReferenceIdeal
import proofs.«169863_j8813272892075_1_alg».proof.Proof.Gen.Pre_finite_inputs
import proofs.«169863_j8813272892075_1_alg».proof.Proof.Gen.KernelIdeal.Value
import proofs.«169863_j8813272892075_1_alg».proof.Proof.Gen.ReferenceIdeal.Run
import proofs.«169863_j8813272892075_1_alg».proof.Proof.Gen.ReferenceIdeal.Read
import proofs.«169863_j8813272892075_1_alg».proof.Proof.CubeSpec
import proofs.«169863_j8813272892075_1_alg».proof.Proof.ReferenceCubes
import proofs.«169863_j8813272892075_1_alg».proof.Proof.CubeArray
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the projected cubes of arguments that agree. -/
theorem algebraic : Cert.algebraic_KernelIdeal_ReferenceIdeal := by
  intro m ρ m' ρ' _ hagree
  refine ⟨_, Cert.KernelIdeal.CubeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
